-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S10 : Shape := ⟨1, ![10]⟩
abbrev S4096x10 : Shape := ⟨2, ![4096, 10]⟩
abbrev S1024x4096 : Shape := ⟨2, ![1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S10 : S_.BroadcastsInDim S10 (![] : Fin 0 → Fin S10.rank)
  reducesTo_S10_S_d0 : S10.ReducesTo [0] S_
  bcast_S_S4096x10 : S_.BroadcastsInDim S4096x10 (![] : Fin 0 → Fin S4096x10.rank)
  reducesTo_S4096x10_S_d0_1 : S4096x10.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S8x2048x1024 .f32) (main_arg1 : FVec F S10 .f32) (main_arg2 : FVec F S4096x10 .f32) (main_arg3 : FVec F S1024x4096 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S10 .f32 := Host.absf main_arg1
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S4096x10 .f32 := Host.absf main_arg2
  let main_cst_2 : FVec F S_ .f32 := constant S_ .f32 0x7F800000#32
  let main_v10 : FVec F S4096x10 .f32 := broadcastInDim S4096x10 ![] bcast_S_S4096x10 main_cst_2
  let main_v11 : IVec S4096x10 1 := cmpf .olt main_v9 main_v10
  let main_c_3 : IVec S_ 1 := constantI S_ 1 1#1
  let main_v12 : IVec S_ 1 := (fun x v => Host.reduce IntOp.andi x v reducesTo_S4096x10_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S8x2048x1024 : Shape := ⟨3, ![8, 2048, 1024]⟩
abbrev S10 : Shape := ⟨1, ![10]⟩
abbrev S4096x10 : Shape := ⟨2, ![4096, 10]⟩
abbrev S1024x4096 : Shape := ⟨2, ![1024, 4096]⟩
abbrev S16384x1024 : Shape := ⟨2, ![16384, 1024]⟩
abbrev S1x10 : Shape := ⟨2, ![1, 10]⟩
abbrev S10x4096 : Shape := ⟨2, ![10, 4096]⟩
abbrev S4096x1024 : Shape := ⟨2, ![4096, 1024]⟩
abbrev S512x128 : Shape := ⟨2, ![512, 128]⟩
abbrev S512x1024 : Shape := ⟨2, ![512, 1024]⟩
abbrev S512x10 : Shape := ⟨2, ![512, 10]⟩
abbrev S512x4096 : Shape := ⟨2, ![512, 4096]⟩

abbrev nBuf : Space → Nat
  | .hbm => 12
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S10, .f32⟩
  | .hbm, ⟨2, _⟩ => ⟨S4096x10, .f32⟩
  | .hbm, ⟨3, _⟩ => ⟨S1024x4096, .f32⟩
  | .hbm, ⟨4, _⟩ => ⟨S16384x1024, .f32⟩
  | .hbm, ⟨5, _⟩ => ⟨S1x10, .f32⟩
  | .hbm, ⟨6, _⟩ => ⟨S10x4096, .f32⟩
  | .hbm, ⟨7, _⟩ => ⟨S10x4096, .bf16⟩
  | .hbm, ⟨8, _⟩ => ⟨S4096x1024, .f32⟩
  | .hbm, ⟨9, _⟩ => ⟨S4096x1024, .bf16⟩
  | .hbm, ⟨10, _⟩ => ⟨S16384x1024, .f32⟩
  | .hbm, ⟨11, _⟩ => ⟨S8x2048x1024, .f32⟩
  | .local _ .vmem, ⟨0, _⟩ => ⟨S512x128, .f32⟩
  | .local _ .vmem, ⟨1, _⟩ => ⟨S512x128, .f32⟩
  | .local _ .vmem, ⟨2, _⟩ => ⟨S1x10, .f32⟩
  | .local _ .vmem, ⟨3, _⟩ => ⟨S10x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x1024_S16384x1024 : S8x2048x1024.ShapeCasts S16384x1024
  shapeCasts_S10_S1x10 : S10.ShapeCasts S1x10
  transposes_S4096x10_S10x4096_1_0 : S4096x10.Transposes [1, 0] S10x4096
  bitsLt_bf16_f32 : FTy.bits .bf16 < FTy.bits .f32
  transposes_S1024x4096_S4096x1024_1_0 : S1024x4096.Transposes [1, 0] S4096x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x10 : S512x128.Slices ![0, 0] S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S10x4096_S10x4096_0_0 : ∀ a, (![0, 0] : Fin 2 → Nat) a + S10x4096.size a ≤ S10x4096.size a
  h_S10x4096 : 0 < S10x4096.numel
  shapeCasts_S10x4096_S10x4096 : S10x4096.ShapeCasts S10x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  shapeCasts_S16384x1024_S8x2048x1024 : S16384x1024.ShapeCasts S8x2048x1024
  dot_S512x10_S10x4096_S512x4096_1_0_0_1_n_n_wf : DotDims.WF S512x10 S10x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x1024.size a
  hwx0_0 : ∀ i : grid0.Coords, EltTy.bits .f32 = 32 ∨ (Rect.block (s := S16384x1024) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10.size a ≤ S1x10.size a
  hwx0_1 : ∀ i : grid0.Coords, EltTy.bits .f32 = 32 ∨ (Rect.block (s := S1x10) S1x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x4096.size a ≤ S10x4096.size a
  hwx0_2 : ∀ i : grid0.Coords, EltTy.bits .bf16 = 32 ∨ (Rect.block (s := S10x4096) S10x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def dot_S512x10_S10x4096_S512x4096_1_0_0_1_n_n : DotDims S512x10 S10x4096 S512x4096 where
  lhsContracting := [1]
  rhsContracting := [0]
  lhsNonContracting := [0]
  rhsNonContracting := [1]
  lhsBatch := []
  rhsBatch := []
  wf := dot_S512x10_S10x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S10 : Shape := ⟨1, ![10]⟩
abbrev S4096x10 : Shape := ⟨2, ![4096, 10]⟩
abbrev S1024x4096 : Shape := ⟨2, ![1024, 4096]⟩
abbrev S8x2048x10 : Shape := ⟨3, ![8, 2048, 10]⟩
abbrev S1x1x10 : Shape := ⟨3, ![1, 1, 10]⟩
abbrev S8x2048x4096 : Shape := ⟨3, ![8, 2048, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S10, .f32⟩
  | .hbm, ⟨2, _⟩ => ⟨S4096x10, .f32⟩
  | .hbm, ⟨3, _⟩ => ⟨S1024x4096, .f32⟩
  | .hbm, ⟨4, _⟩ => ⟨S8x2048x10, .f32⟩
  | .hbm, ⟨5, _⟩ => ⟨S8x2048x10, .f32⟩
  | .hbm, ⟨6, _⟩ => ⟨S10, .f32⟩
  | .hbm, ⟨7, _⟩ => ⟨S1x1x10, .f32⟩
  | .hbm, ⟨8, _⟩ => ⟨S8x2048x10, .f32⟩
  | .hbm, ⟨9, _⟩ => ⟨S8x2048x10, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x2048x1024_S8x2048x10_0_0_0 : S8x2048x1024.Slices ![0, 0, 0] S8x2048x10
  bcast_S10_S1x1x10_2 : S10.BroadcastsInDim S1x1x10 (![2] : Fin 1 → Fin S1x1x10.rank)
  bcast_S1x1x10_S8x2048x10_0_1_2 : S1x1x10.BroadcastsInDim S8x2048x10 (![0, 1, 2] : Fin 3 → Fin S8x2048x10.rank)
  bcast_S_S8x2048x4096 : S_.BroadcastsInDim S8x2048x4096 (![] : Fin 0 → Fin S8x2048x4096.rank)
  dot_S8x2048x10_S4096x10_S8x2048x4096_2_1_01_0_n_n_wf : DotDims.WF S8x2048x10 S4096x10 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x10_S4096x10_S8x2048x4096_2_1_01_0_n_n : DotDims S8x2048x10 S4096x10 S8x2048x4096 where
  lhsContracting := [2]
  rhsContracting := [1]
  lhsNonContracting := [0, 1]
  rhsNonContracting := [0]
  lhsBatch := []
  rhsBatch := []
  wf := dot_S8x2048x10_S4096x10_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Token.lean ====
/-
  One token through the feed-forward block, over the extended reals.

  A token's first ten features `u 0 … u 9` meet ten angles `θ 0 … θ 9`: feature `q` becomes `cos (u q) · cos (θ q)`.
  Hidden unit `f` is `max (∑ q, feature q · a f q) z`, with `z` the value of the zero word, and output lane `e` is
  `∑ f, hidden f · b e f`. Kernel and reference both compute exactly these sums of products, factor by factor in this
  order; they differ only in how the four arrays are laid out (tokens flattened to rows, weights transposed, rows cut
  into blocks). So nothing is used of the extended reals beyond reading each array at the right index: no
  distributivity, no cancelling, and the inputs' finiteness is never needed.

  `rows` is that function of the four argument arrays with the token given by its row number `r = 2048 · b + s`,
  and `flat` is `rows` as an array of shape [16384, 1024].
-/
import Idealize.ShloMosaic.PureOps.Ideal
import Idealize.ShloMosaic.Lib.ValueIdx

noncomputable section

namespace Cert.Ffn

open Idealize.ShloMosaic Idealize.ShloMosaic.ValueIdx

/-- The value of the zero word: what the matrix products start from and what the rectifier compares with. -/
def zeroVal : EReal := Ideal.ofBits .f32 0x00000000#32

/-- Feature `q` of a token: the cosine of its `q`-th entry times the cosine of the `q`-th angle. -/
def feature (u θ : Fin 10 → EReal) (q : Fin 10) : EReal := Ideal.cos (u q) * Ideal.cos (θ q)

/-- Hidden unit `f`: the features against row `f` of the first weight, rectified. -/
def hidden (u θ : Fin 10 → EReal) (a : Fin 4096 → Fin 10 → EReal) (f : Fin 4096) : EReal :=
  max (∑ q : Fin 10, feature u θ q * a f q) zeroVal

/-- Output lane `e`: the hidden units against row `e` of the second weight. -/
def token (u θ : Fin 10 → EReal) (a : Fin 4096 → Fin 10 → EReal) (b : Fin 1024 → Fin 4096 → EReal) (e : Fin 1024) : EReal :=
  ∑ f : Fin 4096, hidden u θ a f * b e f

/-- The token function depends on its four tables entry by entry. -/
theorem token_congr {u u' θ θ' : Fin 10 → EReal} {a a' : Fin 4096 → Fin 10 → EReal} {b b' : Fin 1024 → Fin 4096 → EReal}
    (hu : ∀ q, u q = u' q) (hθ : ∀ q, θ q = θ' q) (ha : ∀ f q, a f q = a' f q) (hb : ∀ e f, b e f = b' e f) (e : Fin 1024) :
    token u θ a b e = token u' θ' a' b' e := by
  obtain rfl : u = u' := funext hu
  obtain rfl : θ = θ' := funext hθ
  obtain rfl : a = a' := funext fun f => funext (ha f)
  obtain rfl : b = b' := funext fun e => funext (hb e)
  rfl

/-- Feature `q` sits in lane `q` of a token's 1024 entries. -/
def lane (q : Fin 10) : Fin 1024 := ⟨q.val, by omega⟩

/-- Row `r` of the flattened tokens is token `s` of batch `b`, `r = 2048 · b + s`. -/
def tokB (r : Fin 16384) : Fin 8 := ⟨r.val / 2048, by omega⟩
def tokS (r : Fin 16384) : Fin 2048 := ⟨r.val % 2048, by omega⟩

variable (x : (⟨3, ![8, 2048, 1024]⟩ : Shape).Idx → EReal) (ry : (⟨1, ![10]⟩ : Shape).Idx → EReal)
  (w1 : (⟨2, ![4096, 10]⟩ : Shape).Idx → EReal) (w2 : (⟨2, ![1024, 4096]⟩ : Shape).Idx → EReal)

/-- The result at row `r`, lane `e`, from the four argument arrays. -/
def rows (r : Fin 16384) (e : Fin 1024) : EReal :=
  token (fun q => x (ix3 (tokB r) (tokS r) (lane q))) (fun q => ry (ix1 q)) (fun f q => w1 (ix2 f q)) (fun e f => w2 (ix2 e f)) e

/-- The same as an array of shape [16384, 1024]. -/
def flat : (⟨2, ![16384, 1024]⟩ : Shape).Idx → EReal :=
  fun i => rows x ry w1 w2 ⟨(i 0).val, (i 0).isLt⟩ ⟨(i 1).val, (i 1).isLt⟩

theorem flat_ix2 (r : Fin 16384) (e : Fin 1024) : flat x ry w1 w2 (ix2 r e) = rows x ry w1 w2 r e := rfl

end Cert.Ffn

end
-- ==== Proof.Payload.lean ====
/-
  What the kernel body stores, read at one element.

  The body loads a [512, 128] block of token rows, the [1, 10] angles, the [10, 4096] and [4096, 1024] weights, and stores
  one [512, 1024] block: two matrix products into the zero word with a rectifier between them, on the cosine features of
  the block's first ten lanes. Every change of float format is the identity over the extended reals and the four shape
  casts are casts of a shape to itself, so at row `p`, lane `e` the stored value is the token function of row `p` of the
  block, the angles' one row, and the weights read transposed (`a f q` at `(q, f)`, `b e f` at `(f, e)`).
-/
import proofs.«103083_j65481071397693_1_alg».proof.Proof.Gen.KernelIdeal.Skeleton
import proofs.«103083_j65481071397693_1_alg».proof.Proof.LibRowwise
import proofs.«103083_j65481071397693_1_alg».proof.Proof.Token
import Idealize.ShloMosaic.Lib.ValueLayout

noncomputable section

namespace Cert.KernelIdeal.Ffn

open Idealize.ShloMosaic Idealize.ShloMosaic.ValueIdx Cert.KernelIdeal Cert.KernelIdeal.Gen Cert.Lib.Rowwise

/-- A product `[M, K] × [K, N]` into the zero word under any record whose six lists are the plain product's. -/
theorem matmul_zero_apply {M K N : Nat} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0]) (h4 : D.rhsNonContracting = [1])
    (h5 : D.lhsBatch = []) (h6 : D.rhsBatch = []) (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) := by
  obtain rfl := eq_plain D h1 h2 h3 h4 h5 h6
  exact plain_matmul_zero_apply prec a b p q

/-- Lane `q` of the ten features inside a block's 128 lanes. -/
def lane128 (q : Fin 10) : Fin 128 := ⟨q.val, by omega⟩

theorem pay_apply (x0 : FVec Ideal S512x128 .f32) (x1 : FVec Ideal S1x10 .f32) (x2 : FVec Ideal S10x4096 .bf16)
    (x3 : FVec Ideal S4096x1024 .bf16) (p : Fin 512) (e : Fin 1024) :
    k0_pay1 (F := Ideal) x0 x1 x2 x3 (ix2 p e)
      = Cert.Ffn.token (fun q => x0 (ix2 p (lane128 q))) (fun q => x1 (ix2 (0 : Fin 1) q)) (fun f q => x2 (ix2 q f))
          (fun e f => x3 (ix2 f e)) e := by
  unfold k0_pay1
  simp only [shapeCast_self]
  -- the second product: a sum over the 4096 hidden units
  refine (matmul_zero_apply _ rfl rfl rfl rfl rfl rfl none _ _ p e).trans ?_
  unfold Cert.Ffn.token
  refine Finset.sum_congr rfl fun f _ => ?_
  refine congrArg₂ (· * ·) ?_ rfl
  -- a hidden unit: the rectifier over the first product, a sum over the ten features
  unfold Cert.Ffn.hidden
  show max (FloatOps.matmul (F := Ideal) _ none _ _ _ (ix2 p f)) _ = _
  refine congrArg₂ max ?_ rfl
  refine (matmul_zero_apply _ rfl rfl rfl rfl rfl rfl none _ _ p f).trans ?_
  refine Finset.sum_congr rfl fun q _ => ?_
  refine congrArg₂ (· * ·) ?_ rfl
  -- a feature: the block's lane `q` of row `p`, and the angles' one row broadcast over the rows
  unfold Cert.Ffn.feature
  show Ideal.cos (extractStridedSlice S512x10 ![0, 0] x0 slices_S512x128_o0_0_S512x10 (ix2 p q))
      * broadcastTo S512x10 (cos x1) broadcasts_S1x10_S512x10 (ix2 p q) = _
  rw [broadcastTo_1b_ab_apply]
  refine congrArg₂ (· * ·) (congrArg Ideal.cos ?_) rfl
  exact extractStridedSlice_apply _ x0 _ (ix2 p q) (ix2 p (lane128 q)) fun a => match a with
    | ⟨0, _⟩ => by show p.val = 0 + p.val; omega
    | ⟨1, _⟩ => by show q.val = 0 + q.val; omega

end Cert.KernelIdeal.Ffn

end
-- ==== Proof.Region.lean ====
/-
  The kernel's result array after the run.

  The region's five arrays are the tokens flattened to [16384, 1024] rows, the angles as one row [1, 10], the two weights
  transposed, and the [16384, 1024] result. Grid point `t` (of 32) reads rows `512 t … 512 t + 511` of the tokens (their
  first 128 lanes), the whole of the other three, and writes rows `512 t … 512 t + 511` of the result. With the payload
  read at an element, the block point `t` writes back is the block of `Ffn.flat` of the four argument arrays: row
  `r = 512 t + p` of the flattened tokens is token `r % 2048` of batch `r / 2048`, the one row of angles is the angle
  vector, and a transposed weight at `(q, f)` is the weight at `(f, q)`. The 32 blocks tile the result, so the result
  array ends at `Ffn.flat`; the program's last line reshapes it to [8, 2048, 1024].
-/
import proofs.«103083_j65481071397693_1_alg».proof.Proof.Gen.KernelIdeal.Frame
import proofs.«103083_j65481071397693_1_alg».proof.Proof.Payload
import Idealize.ShloMosaic.Lib.Pipeline.Value
import Idealize.ShloMosaic.Lib.StableHlo.Run
import Idealize.ShloMosaic.Lib.ValueLayout

noncomputable section

namespace Cert.KernelIdeal.Ffn

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The argument arrays, and the arrays the region finds -/

abbrev argX (c : Dev nD) : S8x2048x1024.Idx → EReal := m ((c.tc : Thread nD τ).loc main_arg0)
abbrev argRy (c : Dev nD) : S10.Idx → EReal := m ((c.tc : Thread nD τ).loc main_arg1)
abbrev argW1 (c : Dev nD) : S4096x10.Idx → EReal := m ((c.tc : Thread nD τ).loc main_arg2)
abbrev argW2 (c : Dev nD) : S1024x4096.Idx → EReal := m ((c.tc : Thread nD τ).loc main_arg3)

/-- The result array's contents after the run, to be proved: `Ffn.flat` of the four arguments. -/
abbrev result (c : Dev nD) : S16384x1024.Idx → EReal := Cert.Ffn.flat (argX m c) (argRy m c) (argW1 m c) (argW2 m c)

/-- The tokens as the region finds them: the first argument flattened. -/
theorem V_tokens (c : Dev nD) : (V m c main_v0 : S16384x1024.Idx → EReal)
    = shapeCast S16384x1024 (argX m c) shapeCasts_S8x2048x1024_S16384x1024 := by
  show StableHlo.after hostOps0 (fun b => m (c, b)) (Proc.devRef .tc main_v0) = _
  after_results
  rfl

/-- The angles as the region finds them: the second argument as one row. -/
theorem V_angles (c : Dev nD) : (V m c main_v1 : S1x10.Idx → EReal) = shapeCast S1x10 (argRy m c) shapeCasts_S10_S1x10 := by
  show StableHlo.after hostOps0 (fun b => m (c, b)) (Proc.devRef .tc main_v1) = _
  after_results
  rfl

/-- The first weight as the region finds it: transposed (the change of format is the identity). -/
theorem V_w1 (c : Dev nD) : (V m c main_v3 : S10x4096.Idx → EReal)
    = transpose S10x4096 [1, 0] (argW1 m c) transposes_S4096x10_S10x4096_1_0 := by
  show StableHlo.after hostOps0 (fun b => m (c, b)) (Proc.devRef .tc main_v3) = _
  after_results
  rfl

/-- The second weight as the region finds it: transposed. -/
theorem V_w2 (c : Dev nD) : (V m c main_v5 : S4096x1024.Idx → EReal)
    = transpose S4096x1024 [1, 0] (argW2 m c) transposes_S1024x4096_S4096x1024_1_0 := by
  show StableHlo.after hostOps0 (fun b => m (c, b)) (Proc.devRef .tc main_v5) = _
  after_results
  rfl

/-! ## The windows' blocks -/

theorem hz : (![0, 0] : Fin 2 → Nat) = fun _ => 0 := funext fun a => by fin_cases a <;> rfl

/-- The printed index maps over the 32 points: the tokens' and the result's block index on the rows is the point and on
    the lanes 0; the other three windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The row of the flattened tokens that row `p` of point `t`'s block is. -/
def rowAt (t : Fin cfg0.N) (p : Fin 512) : Fin 16384 :=
  ⟨512 * t.val + p.val, by
    have h : t.val < 32 := Nat.lt_of_lt_of_eq t.isLt N_0
    omega⟩

/-- The tokens' block at point `t`, row `p`, lane `l`: the flattened tokens at row `512 t + p`. -/
theorem tokens_blk (c : Dev nD) (t : Fin cfg0.N) (p : Fin 512) (l : Fin 128) :
    (iblk m c 0 t : Vec Ideal S512x128 .f32) (ix2 p l)
      = (V m c main_v0 : S16384x1024.Idx → EReal) (ix2 (rowAt t p) (⟨l.val, by omega⟩ : Fin 1024)) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 128 + 1 * l.val = l.val; rw [e1]; omega

/-- The angles' block at any point is the angles' one row. -/
theorem angles_blk (c : Dev nD) (t : Fin cfg0.N) (u : Fin 1) (q : Fin 10) :
    (iblk m c 1 t : Vec Ideal S1x10 .f32) (ix2 u q) = (V m c main_v1 : S1x10.Idx → EReal) (ix2 u q) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 1 + 1 * u.val = u.val; rw [e0]; omega
  | ⟨1, _⟩ => show win0_1.index t (1 : Fin 2) * 10 + 1 * q.val = q.val; rw [e1]; omega

/-- The first weight's block at any point is the whole transposed weight. -/
theorem w1_blk (c : Dev nD) (t : Fin cfg0.N) (q : Fin 10) (f : Fin 4096) :
    (iblk m c 2 t : Vec Ideal S10x4096 .bf16) (ix2 q f) = (V m c main_v3 : S10x4096.Idx → EReal) (ix2 q f) := by
  obtain ⟨-, -, -, -, e0, e1, -⟩ := idx_facts t
  unfold iblk
  rw [View.read_apply]
  show V m c main_v3 _ = V m c main_v3 _
  congr 1
  funext a
  apply Fin.ext
  match a with
  | ⟨0, _⟩ => show win0_2.index t (0 : Fin 2) * 10 + 1 * q.val = q.val; rw [e0]; omega
  | ⟨1, _⟩ => show win0_2.index t (1 : Fin 2) * 4096 + 1 * f.val = f.val; rw [e1]; omega

/-- The second weight's block at any point is the whole transposed weight. -/
theorem w2_blk (c : Dev nD) (t : Fin cfg0.N) (f : Fin 4096) (e : Fin 1024) :
    (iblk m c 3 t : Vec Ideal S4096x1024 .bf16) (ix2 f e) = (V m c main_v5 : S4096x1024.Idx → EReal) (ix2 f e) := by
  obtain ⟨-, -, -, -, -, -, e0, e1, -⟩ := idx_facts t
  unfold iblk
  rw [View.read_apply]
  show V m c main_v5 _ = V m c main_v5 _
  congr 1
  funext a
  apply Fin.ext
  match a with
  | ⟨0, _⟩ => show win0_3.index t (0 : Fin 2) * 4096 + 1 * f.val = f.val; rw [e0]; omega
  | ⟨1, _⟩ => show win0_3.index t (1 : Fin 2) * 1024 + 1 * e.val = e.val; rw [e1]; omega

/-! ## The blocks in terms of the arguments -/

/-- Row `512 t + p` of the flattened tokens, lane `q` of the first ten, is the token's entry in the first argument. -/
theorem tokens_arg (c : Dev nD) (t : Fin cfg0.N) (p : Fin 512) (q : Fin 10) :
    (iblk m c 0 t : Vec Ideal S512x128 .f32) (ix2 p (lane128 q))
      = argX m c (ix3 (Cert.Ffn.tokB (rowAt t p)) (Cert.Ffn.tokS (rowAt t p)) (Cert.Ffn.lane q)) := by
  rw [tokens_blk, V_tokens]
  refine shapeCast_apply (argX m c) shapeCasts_S8x2048x1024_S16384x1024 _ _ ?_
  rw [Shape.rowMajor_val_two, Shape.rowMajor_val_three]
  show ((rowAt t p).val / 2048 * 2048 + (rowAt t p).val % 2048) * 1024 + q.val = (rowAt t p).val * 1024 + q.val
  omega

theorem angles_arg (c : Dev nD) (t : Fin cfg0.N) (q : Fin 10) :
    (iblk m c 1 t : Vec Ideal S1x10 .f32) (ix2 (0 : Fin 1) q) = argRy m c (ix1 q) := by
  rw [angles_blk, V_angles]
  exact shapeCast_a_1a_apply (argRy m c) shapeCasts_S10_S1x10 0 q

theorem w1_arg (c : Dev nD) (t : Fin cfg0.N) (q : Fin 10) (f : Fin 4096) :
    (iblk m c 2 t : Vec Ideal S10x4096 .bf16) (ix2 q f) = argW1 m c (ix2 f q) := by
  rw [w1_blk, V_w1]
  exact transpose_ix2_apply (argW1 m c) transposes_S4096x10_S10x4096_1_0 q f

theorem w2_arg (c : Dev nD) (t : Fin cfg0.N) (f : Fin 4096) (e : Fin 1024) :
    (iblk m c 3 t : Vec Ideal S4096x1024 .bf16) (ix2 f e) = argW2 m c (ix2 e f) := by
  rw [w2_blk, V_w2]
  exact transpose_ix2_apply (argW2 m c) transposes_S1024x4096_S4096x1024_1_0 f e

/-! ## What a point writes back, and the array after the run -/

/-- What point `t` stores at row `p`, lane `e` of its block: the result at row `512 t + p`, lane `e`. -/
theorem stored_eq (c : Dev nD) (t : Fin cfg0.N) (p : Fin 512) (e : Fin 1024) :
    k0_pay1 (F := Ideal) (iblk m c 0 t) (iblk m c 1 t) (iblk m c 2 t) (iblk m c 3 t) (ix2 p e)
      = Cert.Ffn.rows (argX m c) (argRy m c) (argW1 m c) (argW2 m c) (rowAt t p) e := by
  refine (pay_apply (iblk m c 0 t) (iblk m c 1 t) (iblk m c 2 t) (iblk m c 3 t) p e).trans ?_
  unfold Cert.Ffn.rows
  exact Cert.Ffn.token_congr (fun q => tokens_arg m c t p q) (fun q => angles_arg m c t q) (fun f q => w1_arg m c t q f)
    (fun e f => w2_arg m c t f e) e

/-- The block point `t` writes back is block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz]
  simp only [View.ld_unit_zero (S := S512x128) hz, View.ld_unit_zero (S := S1x10) hz, View.ld_unit_zero (S := S10x4096) hz,
    View.ld_unit_zero (S := S4096x1024) hz]
  funext j
  obtain ⟨p, e, rfl⟩ : ∃ (p : Fin 512) (e : Fin 1024), j = ix2 p e := ⟨j 0, j 1, eq_ix2 j⟩
  obtain ⟨-, -, -, -, -, -, -, -, e0, e1⟩ := idx_facts t
  have hemb : ((cfg0.win 4).blk t).view.emb (ix2 p e) = ix2 (rowAt t p) e := funext fun a => Fin.ext (by
    match a with
    | ⟨0, _⟩ => show win0_4.index t (0 : Fin 2) * 512 + 1 * p.val = 512 * t.val + p.val; rw [e0]; omega
    | ⟨1, _⟩ => show win0_4.index t (1 : Fin 2) * 1024 + 1 * e.val = e.val; rw [e1]; omega)
  show k0_pay1 (F := Ideal) (iblk m c 0 t) (iblk m c 1 t) (iblk m c 2 t) (iblk m c 3 t) (ix2 p e)
    = result m c (((cfg0.win 4).blk t).view.emb (ix2 p e))
  rw [hemb]
  exact stored_eq m c t p e

/-- An index of the result array is in point `t`'s block iff each coordinate is in the block's range. -/
theorem mem_blk (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v6).slice (win0_4.rect t)).set ↔ _
  rw [View.set_slice_whole, Rect.mem_set_unit]
  exact Iff.rfl

/-- Row `r` of the result is written by point `r / 512`: the 32 blocks tile the array. -/
theorem cover (i : S16384x1024.Idx) : ∃ t : Fin cfg0.N, (cfg0.win 4).flush t = true ∧ i ∈ ((cfg0.win 4).blk t).view.set := by
  have h0 : (i 0).val < 16384 := (i 0).isLt
  have h1 : (i 1).val < 1024 := (i 1).isLt
  obtain ⟨t, ht⟩ : ∃ t : Fin cfg0.N, t.val = (i 0).val / 512 :=
    ⟨⟨(i 0).val / 512, Nat.lt_of_lt_of_eq (by omega : (i 0).val / 512 < 32) N_0.symm⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 1024 ≤ (i 1).val ∧ (i 1).val < win0_4.index t (1 : Fin 2) * 1024 + 1024
    rw [e1]; omega

/-- The result array after the run. -/
theorem final (c : Dev nD) : (dats m 0 c).arrAt 4 cfg0.N = result m c :=
  (dats m 0 c).arrAt_eq_of_cover 4 (result m c) (fun t _ => flushed_eq m c t) cover

/-! ## The program's last line, and the run -/

/-- The program's result: the result array reshaped to [8, 2048, 1024]. -/
abbrev output (c : Dev nD) : S8x2048x1024.Idx → EReal :=
  shapeCast S8x2048x1024 (result m c) shapeCasts_S16384x1024_S8x2048x1024

/-- After the region the one remaining line reshapes the result array. -/
theorem tail_eq (c : Dev nD) :
    Pipeline.afterTail₀ cfgs (dats m) 0 (V0 m) [hostOps1] c main_v7 = output m c := by
  unfold Pipeline.afterTail₀
  show StableHlo.after hostOps1 _ (Proc.devRef .tc main_v7) = _
  after_results
  exact congrArg (fun A => shapeCast S8x2048x1024 A shapeCasts_S16384x1024_S8x2048x1024)
    ((Pipeline.withArrays_arr spec0 launch0.win.arr_inj c _ _ 4).trans (final m c))

/-- Every weakly fair execution of the program terminates with its result at `output` and its arguments unchanged. -/
theorem run : θ_run defs (onTc (τ := τ) (main (F := Ideal))) ⟨m, fun _ => 0, ρ⟩ fun r => ∀ c : Dev nD,
      r.2.mem ((c.tc : Thread nD τ).loc main_v7) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Ffn

end
-- ==== Proof.Reference.lean ====
/-
  The reference's result is the same function of the four arguments.

  The reference slices the first ten lanes of every token, takes the cosines, multiplies by the cosines of the angles, and
  applies the two weights with a rectifier between, each weight contracted along its second axis. Read at
  `(b, s, e)` this is the token function of token `s` of batch `b`; and `Ffn.flat` reshaped to [8, 2048, 1024] reads, at
  `(b, s, e)`, row `2048 b + s` of `Ffn.flat`, which is that token again (`(2048 b + s) / 2048 = b`,
  `(2048 b + s) % 2048 = s`).
-/
import proofs.«103083_j65481071397693_1_alg».proof.Proof.Gen.ReferenceIdeal.Read
import proofs.«103083_j65481071397693_1_alg».proof.Proof.Token

noncomputable section

namespace Cert.ReferenceIdeal.Ffn

open Idealize.ShloMosaic Idealize.ShloMosaic.ValueIdx Cert.ReferenceIdeal Cert.ReferenceIdeal.Read

variable (x : (⟨3, ![8, 2048, 1024]⟩ : Shape).Idx → EReal) (ry : (⟨1, ![10]⟩ : Shape).Idx → EReal)
  (w1 : (⟨2, ![4096, 10]⟩ : Shape).Idx → EReal) (w2 : (⟨2, ![1024, 4096]⟩ : Shape).Idx → EReal)

/-- The row of the flattened tokens that holds token `s` of batch `b`. -/
def rowOf (b : Fin 8) (s : Fin 2048) : Fin 16384 := ⟨2048 * b.val + s.val, by omega⟩

/-- A feature of token `(b, s)` as the reference computes it. -/
theorem feature_eq (b : Fin 8) (s : Fin 2048) (q : Fin 10) :
    val_main_v5 (F := Ideal) x ry (ix3 b s q)
      = Cert.Ffn.feature (fun q => x (ix3 (Cert.Ffn.tokB (rowOf b s)) (Cert.Ffn.tokS (rowOf b s)) (Cert.Ffn.lane q))) (fun q => ry (ix1 q)) q := by
  rw [val_main_v5_apply, val_main_v1_apply, val_main_v0_apply, val_main_v4_apply, val_main_v3_apply, val_main_v2_apply]
  unfold Cert.Ffn.feature
  show Ideal.cos _ * Ideal.cos _ = _
  have hx : idx_main_v0 (ix3 b s q) = ix3 (Cert.Ffn.tokB (rowOf b s)) (Cert.Ffn.tokS (rowOf b s)) (Cert.Ffn.lane q) :=
    funext fun a => Fin.ext (by
      match a with
      | ⟨0, _⟩ => show b.val = (2048 * b.val + s.val) / 2048; omega
      | ⟨1, _⟩ => show s.val = (2048 * b.val + s.val) % 2048; omega
      | ⟨2, _⟩ => rfl)
  have hr : idx_main_v3 (idx_main_v4 (ix3 b s q)) = ix1 q := funext fun a => Fin.ext (by match a with | ⟨0, _⟩ => rfl)
  rw [hx, hr]

/-- A hidden unit of token `(b, s)` as the reference computes it. -/
theorem hidden_eq (b : Fin 8) (s : Fin 2048) (f : Fin 4096) :
    val_main_v7 (F := Ideal) x ry w1 (ix3 b s f)
      = Cert.Ffn.hidden (fun q => x (ix3 (Cert.Ffn.tokB (rowOf b s)) (Cert.Ffn.tokS (rowOf b s)) (Cert.Ffn.lane q))) (fun q => ry (ix1 q))
          (fun f q => w1 (ix2 f q)) f := by
  rw [val_main_v7_apply, val_main_v6_apply]
  unfold Cert.Ffn.hidden
  show max _ _ = max _ _
  refine congrArg₂ max (Finset.sum_congr rfl fun q _ => ?_) ?_
  · have hl : lidx_main_v6 (ix3 b s f) q = ix3 b s q :=
      funext fun a => Fin.ext (by match a with | ⟨0, _⟩ => rfl | ⟨1, _⟩ => rfl | ⟨2, _⟩ => rfl)
    have hr : ridx_main_v6 (ix3 b s f) q = ix2 f q := funext fun a => Fin.ext (by match a with | ⟨0, _⟩ => rfl | ⟨1, _⟩ => rfl)
    rw [hl, hr, feature_eq]
  · rw [val_main_call0_v0_apply, val_main_call0_cst_apply]
    rfl

/-- The reference's result is `Ffn.flat` of the arguments, reshaped. -/
theorem result_eq (h : (⟨2, ![16384, 1024]⟩ : Shape).ShapeCasts ⟨3, ![8, 2048, 1024]⟩) :
    val_main_v8 (F := Ideal) x ry w1 w2 = shapeCast ⟨3, ![8, 2048, 1024]⟩ (Cert.Ffn.flat x ry w1 w2) h := by
  funext i
  obtain ⟨b, s, e, rfl⟩ : ∃ (b : Fin 8) (s : Fin 2048) (e : Fin 1024), i = ix3 b s e := ⟨i 0, i 1, i 2, eq_ix3 i⟩
  rw [shapeCast_apply (Cert.Ffn.flat x ry w1 w2) h (ix3 b s e) (ix2 (rowOf b s) e) (by
      rw [Shape.rowMajor_val_two, Shape.rowMajor_val_three]
      show (2048 * b.val + s.val) * 1024 + e.val = (b.val * 2048 + s.val) * 1024 + e.val
      omega),
    Cert.Ffn.flat_ix2, val_main_v8_apply]
  unfold Cert.Ffn.rows Cert.Ffn.token
  refine Finset.sum_congr rfl fun f _ => ?_
  have hl : lidx_main_v8 (ix3 b s e) f = ix3 b s f :=
    funext fun a => Fin.ext (by match a with | ⟨0, _⟩ => rfl | ⟨1, _⟩ => rfl | ⟨2, _⟩ => rfl)
  have hr : ridx_main_v8 (ix3 b s e) f = ix2 e f := funext fun a => Fin.ext (by match a with | ⟨0, _⟩ => rfl | ⟨1, _⟩ => rfl)
  rw [hl, hr, hidden_eq]

end Cert.ReferenceIdeal.Ffn

end
-- ==== Proof.lean ====
/-
  The kernel against its reference: a per-token feed-forward block on cosine features.

  Each of the 8 · 2048 tokens has 1024 entries, of which only the first ten are read. With ten angles `θ`, a first
  weight `w1 : [4096, 10]` and a second weight `w2 : [1024, 4096]`, the result at token `(b, s)`, lane `e` is

      ∑ f, max (∑ q, (cos x(b, s, q) · cos θ(q)) · w1(f, q)) 0 · w2(e, f).

  The reference computes this with two contractions along the weights' second axes. The kernel flattens the tokens to
  16384 rows, transposes both weights on the host, and runs 32 grid points of 512 rows, each a pair of plain matrix
  products into zero with the rectifier between them; its changes of float format are the identity over the extended
  reals. Both sides form the same products in the same order and add them up over the same index sets, so the two results
  agree entry by entry without any law beyond reading each array at the right index; the inputs' finiteness is not used.

  Proof/Token.lean states the per-token function and its flattened form; Proof/Payload.lean reads what the kernel body
  stores at one element; Proof/Region.lean reads the five arrays of the region from the arguments, shows that the block
  each grid point writes back is a block of the flattened function and that the 32 blocks tile the result, and follows
  the last reshape; Proof/Reference.lean reads the reference's operations at an index and meets the same function.
  The three frames are the generated ones (the reference's is its generated run with the result dropped), and the
  idealization rewrote nothing, so `preserves` is trivially true.
-/
import proofs.«103083_j65481071397693_1_alg».proof.Defs
import proofs.«103083_j65481071397693_1_alg».proof.Proof.Gen.Kernel
import proofs.«103083_j65481071397693_1_alg».proof.Proof.Gen.Kernel.Skeleton
import proofs.«103083_j65481071397693_1_alg».proof.Proof.Gen.Kernel.Launch
import proofs.«103083_j65481071397693_1_alg».proof.Proof.Gen.Kernel.Points
import proofs.«103083_j65481071397693_1_alg».proof.Proof.Gen.Kernel.Frame
import proofs.«103083_j65481071397693_1_alg».proof.Proof.Gen.KernelIdeal
import proofs.«103083_j65481071397693_1_alg».proof.Proof.Gen.KernelIdeal.Skeleton
import proofs.«103083_j65481071397693_1_alg».proof.Proof.Gen.KernelIdeal.Launch
import proofs.«103083_j65481071397693_1_alg».proof.Proof.Gen.KernelIdeal.Points
import proofs.«103083_j65481071397693_1_alg».proof.Proof.Gen.KernelIdeal.Frame
import proofs.«103083_j65481071397693_1_alg».proof.Proof.Gen.ReferenceIdeal
import proofs.«103083_j65481071397693_1_alg».proof.Proof.Gen.Pre_finite_inputs
import proofs.«103083_j65481071397693_1_alg».proof.Proof.Gen.ReferenceIdeal.Run
import proofs.«103083_j65481071397693_1_alg».proof.Proof.Gen.ReferenceIdeal.Read
import proofs.«103083_j65481071397693_1_alg».proof.Proof.Region
import proofs.«103083_j65481071397693_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the flattened per-token function of the (agreeing) arguments, reshaped to [8, 2048, 1024]. -/
theorem algebraic : Cert.algebraic_KernelIdeal_ReferenceIdeal := by
  intro m ρ m' ρ' _ hagree
  refine ⟨fun c => Cert.KernelIdeal.Ffn.output m c, Cert.KernelIdeal.Ffn.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v8_eq _ _ _ _).trans (Cert.ReferenceIdeal.Ffn.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
